-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S64x128 .f32) (main_arg4 : FVec F S128 .f32) (main_arg5 : FVec F S128x40 .f32) (main_arg6 : FVec F S128x40 .f32) (main_arg7 : FVec F S40 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S800000x128 : Shape := ⟨2, ![800000, 128]⟩
abbrev S50000x40 : Shape := ⟨2, ![50000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 60
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x1, .f32⟩
  | .hbm, ⟨39, _⟩ => ⟨S50000x64, .f32⟩
  | .hbm, ⟨40, _⟩ => ⟨S50000x64, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S50000x40, .f32⟩
  | .hbm, ⟨59, _⟩ => ⟨S50000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x40, .f32⟩
  | .local _ .vmem, ⟨14, _⟩ => ⟨S128x40, .f32⟩
  | .local _ .vmem, ⟨15, _⟩ => ⟨S40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38_0 : Ref sig .tc := ⟨.hbm, 58, rfl⟩
abbrev main_v38_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S50000x40.size a
  hwx1_6 : ∀ i : grid1.Coords, EltTy.bits .f32 = 32 ∨ (Rect.block (s := S50000x40) S5000x40.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38_0) S5000x40.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_1) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S50000x40 : Shape := ⟨2, ![50000, 40]⟩
abbrev S1x40 : Shape := ⟨2, ![1, 40]⟩

abbrev nBuf : Space → Nat
  | .hbm => 94
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x40, .f32⟩
  | .hbm, ⟨74, _⟩ => ⟨S1x40, .f32⟩
  | .hbm, ⟨75, _⟩ => ⟨S50000x40, .f32⟩
  | .hbm, ⟨76, _⟩ => ⟨S50000x40, .f32⟩
  | .hbm, ⟨77, _⟩ => ⟨S50000x40, .f32⟩
  | .hbm, ⟨78, _⟩ => ⟨S50000x40, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000x1, .f32⟩
  | .hbm, ⟨85, _⟩ => ⟨S50000x40, .f32⟩
  | .hbm, ⟨86, _⟩ => ⟨S50000x40, .f32⟩
  | .hbm, ⟨87, _⟩ => ⟨S50000x40, .f32⟩
  | .hbm, ⟨88, _⟩ => ⟨S_, .f32⟩
  | .hbm, ⟨89, _⟩ => ⟨S50000, .f32⟩
  | .hbm, ⟨90, _⟩ => ⟨S50000x1, .f32⟩
  | .hbm, ⟨91, _⟩ => ⟨S50000x1, .f32⟩
  | .hbm, ⟨92, _⟩ => ⟨S50000x40, .f32⟩
  | .hbm, ⟨93, _⟩ => ⟨S50000x40, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_call2_v0 : Ref sig .tc := ⟨.hbm, 67, rfl⟩
abbrev main_call2_v1 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call3_cst : Ref sig .tc := ⟨.hbm, 79, rfl⟩
abbrev main_call3_v0 : Ref sig .tc := ⟨.hbm, 80, rfl⟩
abbrev main_call3_cst_0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_cst_1 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_v53 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.RefRun.lean ====
/-
  The reference program's run, read in three stretches.

  The first stretch ends at the hidden features: the mean over each node's in-neighbours of the input rows
  (rows gathered at the edges' sources — a negative source counted from the end —, summed into the edges'
  destinations, divided by the in-degree clipped below at one), through the left weight, plus the bias, plus the
  input rows through the right weight, and the maximum of that with zero. The second stretch ends at the logits:
  the same mean of the hidden rows through the second layer's left weight, plus its bias, plus the hidden rows through
  its right weight. The third is the log-softmax of the logits along each row.

  Each stretch's result is stated as a function of the buffers the stretch starts from, so no term here is larger
  than one layer; the whole run composes them.
-/
import proofs.«171152_j46205258170447_1_alg».proof.Proof.Gen.ReferenceIdeal
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The operations, in order, and the three stretches -/

/-- @main's 86 operations, in order (a called function's operations stand in its call's place, spelt `TRef.…`). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v17) (TRef.of (T := ⟨S50000, .f32⟩) main_v18) maximumf,
    unary main_v18 main_v19 (broadcastInDim S50000x1 ![0] bcast_S50000_S50000x1_0 : (⟨S50000, .f32⟩ : BufTy).Contents (Elt F) → (⟨S50000x1, .f32⟩ : BufTy).Contents (Elt F)),
    unary main_v19 main_v20 (broadcastInDim S50000x64 ![0, 1] bcast_S50000x1_S50000x64_0_1 : (⟨S50000x1, .f32⟩ : BufTy).Contents (Elt F) → (⟨S50000x64, .f32⟩ : BufTy).Contents (Elt F)),
    binary main_v13 main_v20 main_v21 (Host.divf : (⟨S50000x64, .f32⟩ : BufTy).Contents (Elt F) → (⟨S50000x64, .f32⟩ : BufTy).Contents (Elt F) → (⟨S50000x64, .f32⟩ : BufTy).Contents (Elt F)),
    binary main_v21 main_arg2 main_v22 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg4 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    binary main_arg0 main_arg3 main_v26 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v25 main_v26 main_v27 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v27) (TRef.of (T := ⟨S50000x128, .f32⟩) main_call1_v0) (TRef.of (T := ⟨S50000x128, .f32⟩) main_v28) maximumf,
    nullary main_c_4 (constantI S_ 32 0#32),
    unary main_c_4 main_v29 (broadcastInDim S800000 ![] bcast_S_S800000 : (⟨S_, .i32⟩ : BufTy).Contents (Elt F) → (⟨S800000, .i32⟩ : BufTy).Contents (Elt F)),
    binary main_v1 main_v29 main_v30 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v31 (broadcastInDim S800000 ![] bcast_S_S800000 : (⟨S_, .i32⟩ : BufTy).Contents (Elt F) → (⟨S800000, .i32⟩ : BufTy).Contents (Elt F)),
    binary main_v1 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v28 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v36 (broadcastInDim S50000x128 ![] bcast_S_S50000x128 : (⟨S_, .f32⟩ : BufTy).Contents (Elt F) → (⟨S50000x128, .f32⟩ : BufTy).Contents (Elt F)),
    unary main_v3 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v39 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v40 (broadcastInDim S50000 ![] bcast_S_S50000 : (⟨S_, .f32⟩ : BufTy).Contents (Elt F) → (⟨S50000, .f32⟩ : BufTy).Contents (Elt F)),
    unary main_v3 main_v41 (broadcastInDim S800000x1 ![0] bcast_S800000_S800000x1_0 : (⟨S800000, .i32⟩ : BufTy).Contents (Elt F) → (⟨S800000x1, .i32⟩ : BufTy).Contents (Elt F)),
    ternary main_v40 main_v41 main_v39 main_v42 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v42) (TRef.of (T := ⟨S50000, .f32⟩) main_v43) maximumf,
    unary main_v43 main_v44 (broadcastInDim S50000x1 ![0] bcast_S50000_S50000x1_0 : (⟨S50000, .f32⟩ : BufTy).Contents (Elt F) → (⟨S50000x1, .f32⟩ : BufTy).Contents (Elt F)),
    unary main_v44 main_v45 (broadcastInDim S50000x128 ![0, 1] bcast_S50000x1_S50000x128_0_1 : (⟨S50000x1, .f32⟩ : BufTy).Contents (Elt F) → (⟨S50000x128, .f32⟩ : BufTy).Contents (Elt F)),
    binary main_v38 main_v45 main_v46 (Host.divf : (⟨S50000x128, .f32⟩ : BufTy).Contents (Elt F) → (⟨S50000x128, .f32⟩ : BufTy).Contents (Elt F) → (⟨S50000x128, .f32⟩ : BufTy).Contents (Elt F)),
    binary main_v46 main_arg5 main_v47 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg7 main_v48 (broadcastInDim S1x40 ![1] bcast_S40_S1x40_1 : (⟨S40, .f32⟩ : BufTy).Contents (Elt F) → (⟨S1x40, .f32⟩ : BufTy).Contents (Elt F)),
    unary main_v48 main_v49 (broadcastInDim S50000x40 ![0, 1] bcast_S1x40_S50000x40_0_1 : (⟨S1x40, .f32⟩ : BufTy).Contents (Elt F) → (⟨S50000x40, .f32⟩ : BufTy).Contents (Elt F)),
    binary main_v47 main_v49 main_v50 (addf : (⟨S50000x40, .f32⟩ : BufTy).Contents (Elt F) → (⟨S50000x40, .f32⟩ : BufTy).Contents (Elt F) → (⟨S50000x40, .f32⟩ : BufTy).Contents (Elt F)),
    binary main_v28 main_arg6 main_v51 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    binary main_v50 main_v51 main_v52 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v52) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v52) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v53) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_v17) (TRef.of (T := ⟨S50000, .f32⟩) main_v18) maximumf,
    unary main_v18 main_v19 (broadcastInDim S50000x1 ![0] bcast_S50000_S50000x1_0 : (⟨S50000, .f32⟩ : BufTy).Contents (Elt F) → (⟨S50000x1, .f32⟩ : BufTy).Contents (Elt F)),
    unary main_v19 main_v20 (broadcastInDim S50000x64 ![0, 1] bcast_S50000x1_S50000x64_0_1 : (⟨S50000x1, .f32⟩ : BufTy).Contents (Elt F) → (⟨S50000x64, .f32⟩ : BufTy).Contents (Elt F)),
    binary main_v13 main_v20 main_v21 (Host.divf : (⟨S50000x64, .f32⟩ : BufTy).Contents (Elt F) → (⟨S50000x64, .f32⟩ : BufTy).Contents (Elt F) → (⟨S50000x64, .f32⟩ : BufTy).Contents (Elt F)),
    binary main_v21 main_arg2 main_v22 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg4 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v22 main_v24 main_v25 (addf : (⟨S50000x128, .f32⟩ : BufTy).Contents (Elt F) → (⟨S50000x128, .f32⟩ : BufTy).Contents (Elt F) → (⟨S50000x128, .f32⟩ : BufTy).Contents (Elt F)),
    binary main_arg0 main_arg3 main_v26 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    binary main_v25 main_v26 main_v27 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v27) (TRef.of (T := ⟨S50000x128, .f32⟩) main_call1_v0) (TRef.of (T := ⟨S50000x128, .f32⟩) main_v28) maximumf ]

abbrev ops2 : List (HloOp τ sig (Elt F)) :=
  [ nullary main_c_4 (constantI S_ 32 0#32),
    unary main_c_4 main_v29 (broadcastInDim S800000 ![] bcast_S_S800000 : (⟨S_, .i32⟩ : BufTy).Contents (Elt F) → (⟨S800000, .i32⟩ : BufTy).Contents (Elt F)),
    binary main_v1 main_v29 main_v30 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v31 (broadcastInDim S800000 ![] bcast_S_S800000 : (⟨S_, .i32⟩ : BufTy).Contents (Elt F) → (⟨S800000, .i32⟩ : BufTy).Contents (Elt F)),
    binary main_v1 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v28 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v36 (broadcastInDim S50000x128 ![] bcast_S_S50000x128 : (⟨S_, .f32⟩ : BufTy).Contents (Elt F) → (⟨S50000x128, .f32⟩ : BufTy).Contents (Elt F)),
    unary main_v3 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v39 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v40 (broadcastInDim S50000 ![] bcast_S_S50000 : (⟨S_, .f32⟩ : BufTy).Contents (Elt F) → (⟨S50000, .f32⟩ : BufTy).Contents (Elt F)),
    unary main_v3 main_v41 (broadcastInDim S800000x1 ![0] bcast_S800000_S800000x1_0 : (⟨S800000, .i32⟩ : BufTy).Contents (Elt F) → (⟨S800000x1, .i32⟩ : BufTy).Contents (Elt F)),
    ternary main_v40 main_v41 main_v39 main_v42 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_v42) (TRef.of (T := ⟨S50000, .f32⟩) main_v43) maximumf,
    unary main_v43 main_v44 (broadcastInDim S50000x1 ![0] bcast_S50000_S50000x1_0 : (⟨S50000, .f32⟩ : BufTy).Contents (Elt F) → (⟨S50000x1, .f32⟩ : BufTy).Contents (Elt F)),
    unary main_v44 main_v45 (broadcastInDim S50000x128 ![0, 1] bcast_S50000x1_S50000x128_0_1 : (⟨S50000x1, .f32⟩ : BufTy).Contents (Elt F) → (⟨S50000x128, .f32⟩ : BufTy).Contents (Elt F)),
    binary main_v38 main_v45 main_v46 (Host.divf : (⟨S50000x128, .f32⟩ : BufTy).Contents (Elt F) → (⟨S50000x128, .f32⟩ : BufTy).Contents (Elt F) → (⟨S50000x128, .f32⟩ : BufTy).Contents (Elt F)),
    binary main_v46 main_arg5 main_v47 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg7 main_v48 (broadcastInDim S1x40 ![1] bcast_S40_S1x40_1 : (⟨S40, .f32⟩ : BufTy).Contents (Elt F) → (⟨S1x40, .f32⟩ : BufTy).Contents (Elt F)),
    unary main_v48 main_v49 (broadcastInDim S50000x40 ![0, 1] bcast_S1x40_S50000x40_0_1 : (⟨S1x40, .f32⟩ : BufTy).Contents (Elt F) → (⟨S50000x40, .f32⟩ : BufTy).Contents (Elt F)),
    binary main_v47 main_v49 main_v50 (addf : (⟨S50000x40, .f32⟩ : BufTy).Contents (Elt F) → (⟨S50000x40, .f32⟩ : BufTy).Contents (Elt F) → (⟨S50000x40, .f32⟩ : BufTy).Contents (Elt F)),
    binary main_v28 main_arg6 main_v51 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    binary main_v50 main_v51 main_v52 (addf : (⟨S50000x40, .f32⟩ : BufTy).Contents (Elt F) → (⟨S50000x40, .f32⟩ : BufTy).Contents (Elt F) → (⟨S50000x40, .f32⟩ : BufTy).Contents (Elt F)) ]

abbrev ops3 : List (HloOp τ sig (Elt F)) :=
  [ TRef.nullary (TRef.of (T := ⟨S_, .f32⟩) main_call3_cst) (constant S_ .f32 0xFF800000#32),
    TRef.binary (TRef.of (T := ⟨S50000x40, .f32⟩) main_v52) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v52) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v53) subf ]

set_option maxRecDepth 8192 in
theorem ops_split : (ops : List (HloOp τ sig (Elt F))) = ops1 ++ (ops2 ++ ops3) := rfl

/-! ## What each stretch computes -/

/-- The edges' sources: the first row of the edge table. -/
def srcOf (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000
/-- The edges' destinations: its second row. -/
def dstOf (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000
/-- Indices as a column. -/
def col (v : (⟨S800000, .i32⟩ : BufTy).Contents (Elt F)) : (⟨S800000x1, .i32⟩ : BufTy).Contents (Elt F) :=
  broadcastInDim S800000x1 ![0] bcast_S800000_S800000x1_0 v
/-- Gather indices as a column: a negative index counts from the end. -/
def wrapCol (v : (⟨S800000, .i32⟩ : BufTy).Contents (Elt F)) : (⟨S800000x1, .i32⟩ : BufTy).Contents (Elt F) :=
  col (select (cmpi .slt v (broadcastInDim S800000 ![] bcast_S_S800000 (constantI S_ 32 0#32)))
    (addi v (broadcastInDim S800000 ![] bcast_S_S800000 (constantI S_ 32 50000#32))) v)
/-- Each node's in-degree (a sum of ones over the edges that end there), clipped below at one. -/
def clipDeg (v3 : (⟨S800000, .i32⟩ : BufTy).Contents (Elt F)) : (⟨S50000, .f32⟩ : BufTy).Contents (Elt F) :=
  maximumf (broadcastInDim S50000 ![] bcast_S_S50000 (id (constant S_ .f32 0x3F800000#32)))
    (Host.scatterAdd scatter_S50000_S800000x1_S800000_n_0_0_1 (broadcastInDim S50000 ![] bcast_S_S50000 (constant S_ .f32 0x00000000#32))
      (col v3) (broadcastInDim S800000 ![] bcast_S_S800000 (constant S_ .f32 0x3F800000#32)))

/-- The sum over each node's in-edges of the source rows (64 wide). -/
def sum64 (x : (⟨S50000x64, .f32⟩ : BufTy).Contents (Elt F)) (v1 v3 : (⟨S800000, .i32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32))
    (col v3) (Host.gather gather_S50000x64_S800000x1_S800000x64_1_0_n_n_0_1_164 x (wrapCol v1))
/-- The clipped degree repeated along a row of 64. -/
def degRows64 (v3 : (⟨S800000, .i32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 (clipDeg v3))
/-- The mean over in-neighbours, as the reference takes it: the sum divided by the clipped degree. -/
def mean64 (x : (⟨S50000x64, .f32⟩ : BufTy).Contents (Elt F)) (v1 v3 : (⟨S800000, .i32⟩ : BufTy).Contents (Elt F)) : (⟨S50000x64, .f32⟩ : BufTy).Contents (Elt F) :=
  Host.divf (sum64 x v1 v3) (degRows64 v3)
/-- The first layer's affine map: aggregated rows through the left weight, plus the bias, plus own rows through the right weight. -/
def affine1 (A X : (⟨S50000x64, .f32⟩ : BufTy).Contents (Elt F)) (Wl Wr : (⟨S64x128, .f32⟩ : BufTy).Contents (Elt F)) (b : (⟨S128, .f32⟩ : BufTy).Contents (Elt F)) : (⟨S50000x128, .f32⟩ : BufTy).Contents (Elt F) :=
  addf (addf (Host.dotGeneral dot_S50000x64_S64x128_S50000x128_1_0_0_1_n_n none A Wl)
      (broadcastInDim S50000x128 ![0, 1] bcast_S1x128_S50000x128_0_1 (broadcastInDim S1x128 ![1] bcast_S128_S1x128_1 b)))
    (Host.dotGeneral dot_S50000x64_S64x128_S50000x128_1_0_0_1_n_n none X Wr)
/-- The maximum with zero. -/
def relu128 (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))
/-- The hidden features, from the arguments. -/
def hidden (x0 : (⟨S50000x64, .f32⟩ : BufTy).Contents (Elt F)) (x1 : (⟨S2x800000, .i32⟩ : BufTy).Contents (Elt F)) (x2 x3 : (⟨S64x128, .f32⟩ : BufTy).Contents (Elt F)) (x4 : (⟨S128, .f32⟩ : BufTy).Contents (Elt F)) : (⟨S50000x128, .f32⟩ : BufTy).Contents (Elt F) :=
  relu128 (affine1 (mean64 x0 (srcOf x1) (dstOf x1)) x0 x2 x3 x4)

/-- The sum over each node's in-edges of the source rows (128 wide). -/
def sum128 (x : (⟨S50000x128, .f32⟩ : BufTy).Contents (Elt F)) (v1 v3 : (⟨S800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (col v3) (Host.gather gather_S50000x128_S800000x1_S800000x128_1_0_n_n_0_1_1128 x (wrapCol v1))
/-- The clipped degree repeated along a row of 128. -/
def degRows128 (v3 : (⟨S800000, .i32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 (clipDeg v3))
def mean128 (x : (⟨S50000x128, .f32⟩ : BufTy).Contents (Elt F)) (v1 v3 : (⟨S800000, .i32⟩ : BufTy).Contents (Elt F)) : (⟨S50000x128, .f32⟩ : BufTy).Contents (Elt F) :=
  Host.divf (sum128 x v1 v3) (degRows128 v3)
/-- The second layer's affine map. -/
def affine2 (A X : (⟨S50000x128, .f32⟩ : BufTy).Contents (Elt F)) (Wl Wr : (⟨S128x40, .f32⟩ : BufTy).Contents (Elt F)) (b : (⟨S40, .f32⟩ : BufTy).Contents (Elt F)) : (⟨S50000x40, .f32⟩ : BufTy).Contents (Elt F) :=
  addf (addf (Host.dotGeneral dot_S50000x128_S128x40_S50000x40_1_0_0_1_n_n none A Wl)
      (broadcastInDim S50000x40 ![0, 1] bcast_S1x40_S50000x40_0_1 (broadcastInDim S1x40 ![1] bcast_S40_S1x40_1 b)))
    (Host.dotGeneral dot_S50000x128_S128x40_S50000x40_1_0_0_1_n_n none X Wr)
/-- The logits, from the hidden features, the edges and the second layer's parameters. -/
def logits (h1 : (⟨S50000x128, .f32⟩ : BufTy).Contents (Elt F)) (v1 v3 : (⟨S800000, .i32⟩ : BufTy).Contents (Elt F)) (x5 x6 : (⟨S128x40, .f32⟩ : BufTy).Contents (Elt F)) (x7 : (⟨S40, .f32⟩ : BufTy).Contents (Elt F)) : (⟨S50000x40, .f32⟩ : BufTy).Contents (Elt F) :=
  affine2 (mean128 h1 v1 v3) h1 x5 x6 x7

/-- Each row's maximum, as a column repeated along the row. -/
def rowMaxRows (h : (⟨S50000x40, .f32⟩ : BufTy).Contents (Elt F)) : (⟨S50000x40, .f32⟩ : BufTy).Contents (Elt F) :=
  broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf h (constant S_ .f32 0xFF800000#32) reducesTo_S50000x40_S50000_d1 h_S_)))
/-- The log-softmax along each row. -/
def logsm (h : (⟨S50000x40, .f32⟩ : BufTy).Contents (Elt F)) : (⟨S50000x40, .f32⟩ : BufTy).Contents (Elt F) :=
  subf (subf h (rowMaxRows h))
    (broadcastInDim S50000x40 ![0, 1] bcast_S50000x1_S50000x40_0_1 (Host.log (broadcastInDim S50000x1 ![0] bcast_S50000_S50000x1_0
      (Host.reduceAdd (Host.exp (subf h (rowMaxRows h))) (constant S_ .f32 0x00000000#32) reducesTo_S50000x40_S50000_d1 h_S_))))

/-! ## Each stretch, read from any starting contents -/

variable (W : Valuation τ sig (Elt F))

theorem stage1_hidden : after ops1 W (Proc.devRef .tc main_v28)
    = hidden (W (Proc.devRef .tc main_arg0)) (W (Proc.devRef .tc main_arg1)) (W (Proc.devRef .tc main_arg2)) (W (Proc.devRef .tc main_arg3)) (W (Proc.devRef .tc main_arg4)) := by
  after_results_simp <;> rfl
theorem stage1_src : after ops1 W (Proc.devRef .tc main_v1) = srcOf (W (Proc.devRef .tc main_arg1)) := by
  after_results_simp <;> rfl
theorem stage1_dst : after ops1 W (Proc.devRef .tc main_v3) = dstOf (W (Proc.devRef .tc main_arg1)) := by
  after_results_simp <;> rfl
theorem stage1_arg5 : after ops1 W (Proc.devRef .tc main_arg5) = W (Proc.devRef .tc main_arg5) := by after_results_simp <;> rfl
theorem stage1_arg6 : after ops1 W (Proc.devRef .tc main_arg6) = W (Proc.devRef .tc main_arg6) := by after_results_simp <;> rfl
theorem stage1_arg7 : after ops1 W (Proc.devRef .tc main_arg7) = W (Proc.devRef .tc main_arg7) := by after_results_simp <;> rfl

theorem stage2_logits : after ops2 W (Proc.devRef .tc main_v52)
    = logits (W (Proc.devRef .tc main_v28)) (W (Proc.devRef .tc main_v1)) (W (Proc.devRef .tc main_v3)) (W (Proc.devRef .tc main_arg5)) (W (Proc.devRef .tc main_arg6)) (W (Proc.devRef .tc main_arg7)) := by
  after_results_simp <;> rfl

theorem stage3_logits : after ops3 W (Proc.devRef .tc main_v52) = W (Proc.devRef .tc main_v52) := by after_results_simp <;> rfl
abbrev ops3_p1 : List (HloOp τ sig (Elt F)) :=
  [ TRef.nullary (TRef.of (T := ⟨S_, .f32⟩) main_call3_cst) (constant S_ .f32 0xFF800000#32),
    TRef.binary (TRef.of (T := ⟨S50000x40, .f32⟩) main_v52) (TRef.of (T := ⟨S_, .f32⟩) main_call3_cst) (TRef.of (T := ⟨S50000, .f32⟩) main_call3_v0) (fun x v => Host.reduce FloatOps.maximumf x v reducesTo_S50000x40_S50000_d1 h_S_) ]

abbrev ops3_p2 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf ]

abbrev ops3_p3 : List (HloOp τ sig (Elt F)) :=
  [ TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v52) (TRef.of (T := ⟨S50000x40, .f32⟩) main_call3_v4) (TRef.of (T := ⟨S50000x40, .f32⟩) main_call3_v5) subf ]

abbrev ops3_p4 : List (HloOp τ sig (Elt F)) :=
  [ TRef.unary (TRef.of (T := ⟨S50000x40, .f32⟩) main_call3_v5) (TRef.of (T := ⟨S50000x40, .f32⟩) main_call3_v6) Host.exp ]

abbrev ops3_p5 : List (HloOp τ sig (Elt F)) :=
  [ TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_) ]

abbrev ops3_p6 : List (HloOp τ sig (Elt F)) :=
  [ TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v53) subf ]

theorem ops3_split : (ops3 : List (HloOp τ sig (Elt F))) = ops3_p1 ++ (ops3_p2 ++ (ops3_p3 ++ (ops3_p4 ++ (ops3_p5 ++ ops3_p6)))) := rfl

/-! The last stretch, a few operations at a time: each step's result over the buffers it starts from. -/

attribute [local irreducible] Host.reduce in
theorem s3_rowmax : after ops3_p1 W (Proc.devRef .tc main_call3_v0)
    = Host.reduce FloatOps.maximumf (W (Proc.devRef .tc main_v52)) (constant S_ .f32 0xFF800000#32) reducesTo_S50000x40_S50000_d1 h_S_ := by
  after_results_simp <;> rfl
theorem s3_p1_logits : after ops3_p1 W (Proc.devRef .tc main_v52) = W (Proc.devRef .tc main_v52) := by after_results_simp <;> rfl
theorem s3_clipmax : after ops3_p2 W (Proc.devRef .tc main_call3_v2)
    = maximumf (broadcastInDim S50000 ![] bcast_S_S50000 (constant S_ .f32 0xFF800000#32)) (W (Proc.devRef .tc main_call3_v0)) := by
  after_results_simp <;> rfl
theorem s3_p2_logits : after ops3_p2 W (Proc.devRef .tc main_v52) = W (Proc.devRef .tc main_v52) := by after_results_simp <;> rfl
theorem s3_shift : after ops3_p3 W (Proc.devRef .tc main_call3_v5)
    = subf (W (Proc.devRef .tc main_v52)) (broadcastInDim S50000x40 ![0, 1] bcast_S50000x1_S50000x40_0_1 (broadcastInDim S50000x1 ![0] bcast_S50000_S50000x1_0 (W (Proc.devRef .tc main_call3_v2)))) := by
  after_results_simp <;> rfl
theorem s3_exp : after ops3_p4 W (Proc.devRef .tc main_call3_v6) = Host.exp (W (Proc.devRef .tc main_call3_v5)) := by
  after_results_simp <;> rfl
theorem s3_p4_shift : after ops3_p4 W (Proc.devRef .tc main_call3_v5) = W (Proc.devRef .tc main_call3_v5) := by after_results_simp <;> rfl
theorem s3_rowsum : after ops3_p5 W (Proc.devRef .tc main_call3_v7)
    = Host.reduceAdd (W (Proc.devRef .tc main_call3_v6)) (constant S_ .f32 0x00000000#32) reducesTo_S50000x40_S50000_d1 h_S_ := by
  after_results_simp <;> rfl
theorem s3_p5_shift : after ops3_p5 W (Proc.devRef .tc main_call3_v5) = W (Proc.devRef .tc main_call3_v5) := by after_results_simp <;> rfl
theorem s3_last : after ops3_p6 W (Proc.devRef .tc main_v53)
    = subf (W (Proc.devRef .tc main_call3_v5)) (broadcastInDim S50000x40 ![0, 1] bcast_S50000x1_S50000x40_0_1 (Host.log (broadcastInDim S50000x1 ![0] bcast_S50000_S50000x1_0 (W (Proc.devRef .tc main_call3_v7))))) := by
  after_results_simp <;> rfl

theorem stage3_logsm : after ops3 W (Proc.devRef .tc main_v53) = logsm (W (Proc.devRef .tc main_v52)) := by
  rw [ops3_split, StableHlo.after_append, StableHlo.after_append, StableHlo.after_append, StableHlo.after_append, StableHlo.after_append,
    s3_last, s3_rowsum, s3_p5_shift, s3_exp, s3_p4_shift, s3_shift, s3_clipmax, s3_p2_logits, s3_rowmax, s3_p1_logits]
  rfl

/-! ## The whole run -/

/-- The logits from the arguments. -/
def out0 (x0 : (⟨S50000x64, .f32⟩ : BufTy).Contents (Elt F)) (x1 : (⟨S2x800000, .i32⟩ : BufTy).Contents (Elt F)) (x2 x3 : (⟨S64x128, .f32⟩ : BufTy).Contents (Elt F)) (x4 : (⟨S128, .f32⟩ : BufTy).Contents (Elt F))
    (x5 x6 : (⟨S128x40, .f32⟩ : BufTy).Contents (Elt F)) (x7 : (⟨S40, .f32⟩ : BufTy).Contents (Elt F)) : (⟨S50000x40, .f32⟩ : BufTy).Contents (Elt F) :=
  logits (hidden x0 x1 x2 x3 x4) (srcOf x1) (dstOf x1) x5 x6 x7

theorem after_logits : after ops W (Proc.devRef .tc main_v52)
    = out0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_split, StableHlo.after_append, StableHlo.after_append, stage3_logits, stage2_logits, stage1_hidden, stage1_src, stage1_dst,
    stage1_arg5, stage1_arg6, stage1_arg7]
  rfl

theorem after_logsm : after ops W (Proc.devRef .tc main_v53)
    = logsm (out0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))) := by
  rw [ops_split, StableHlo.after_append, StableHlo.after_append, stage3_logsm, stage2_logits, stage1_hidden, stage1_src, stage1_dst,
    stage1_arg5, stage1_arg6, stage1_arg7]
  rfl

set_option maxRecDepth 8192 in
set_option maxHeartbeats 34400000 in
/-- On every device, from any memory with zero counters: every weakly fair execution of the reference terminates with
    the logits and their log-softmax in the two result buffers, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v53) = logsm (out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v52).trans (after_logits _),
      (h c main_v53).trans (after_logsm _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Stages

end
-- ==== Proof.KernelFold.lean ====
/-
  What the buffers hold at each boundary of the kernel program's run, read back to the arguments.

  Before the first region the host computes the edges' sources and destinations, the reciprocal of each node's clipped
  in-degree, and the aggregated input rows: the sum over in-edges of the gathered rows, times that reciprocal. Between
  the regions it does the same to the hidden rows the first region wrote. The sums, the gathers and the clipped degree
  are the very terms the reference computes; only the last step differs (a product with the reciprocal here, a
  quotient there), so the kernel's aggregates are stated over the reference's sums and clipped degree.
-/
import proofs.«171152_j46205258170447_1_alg».proof.Proof.Gen.KernelIdeal.Frame
import proofs.«171152_j46205258170447_1_alg».proof.Proof.RefRun
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The reciprocal of each node's clipped in-degree. -/
def invDeg (v3 : (⟨S800000, .i32⟩ : BufTy).Contents (Elt F)) : (⟨S50000, .f32⟩ : BufTy).Contents (Elt F) :=
  Host.divf (broadcastInDim S50000 ![] bcast_S_S50000 (constant S_ .f32 0x3F800000#32)) (Cert.ReferenceIdeal.Stages.clipDeg v3)
/-- The mean over in-neighbours as the kernel program takes it: the sum times the reciprocal of the clipped degree (64 wide). -/
def meanK64 (x : (⟨S50000x64, .f32⟩ : BufTy).Contents (Elt F)) (v1 v3 : (⟨S800000, .i32⟩ : BufTy).Contents (Elt F)) : (⟨S50000x64, .f32⟩ : BufTy).Contents (Elt F) :=
  mulf (Cert.ReferenceIdeal.Stages.sum64 x v1 v3)
    (broadcastInDim S50000x64 ![0, 1] bcast_S50000x1_S50000x64_0_1 (broadcastInDim S50000x1 ![0] bcast_S50000_S50000x1_0 (invDeg v3)))
/-- The same, 128 wide. -/
def meanK128 (x : (⟨S50000x128, .f32⟩ : BufTy).Contents (Elt F)) (v1 v3 : (⟨S800000, .i32⟩ : BufTy).Contents (Elt F)) : (⟨S50000x128, .f32⟩ : BufTy).Contents (Elt F) :=
  mulf (Cert.ReferenceIdeal.Stages.sum128 x v1 v3)
    (broadcastInDim S50000x128 ![0, 1] bcast_S50000x1_S50000x128_0_1 (broadcastInDim S50000x1 ![0] bcast_S50000_S50000x1_0 (invDeg v3)))

variable (m : (ℓ : Loc nD τ sig) → Buf (Elt F) ℓ) (ρ : Dev nD → PrngReg)

/-! ## At the first region's entry -/

attribute [local irreducible] Host.scatterAdd Host.gather in
theorem entry0_agg (c : Dev nD) : V3 m ρ c main_v23
    = meanK64 (m ((c : Thread nD τ).loc main_arg0)) (Cert.ReferenceIdeal.Stages.srcOf (m ((c : Thread nD τ).loc main_arg1))) (Cert.ReferenceIdeal.Stages.dstOf (m ((c : Thread nD τ).loc main_arg1))) := by
  show StableHlo.after hostOps0_2 (StableHlo.after hostOps0_1 (StableHlo.after hostOps0 (W0 m ρ c))) (Proc.devRef .tc main_v23) = _
  after_results_simp <;> rfl

attribute [local irreducible] Host.scatterAdd Host.gather in
theorem entry0_invDeg (c : Dev nD) : W3 m ρ c (Proc.devRef .tc main_v10)
    = invDeg (Cert.ReferenceIdeal.Stages.dstOf (m ((c : Thread nD τ).loc main_arg1))) := by
  show StableHlo.after hostOps0_2 (StableHlo.after hostOps0_1 (StableHlo.after hostOps0 (W0 m ρ c))) (Proc.devRef .tc main_v10) = _
  after_results_simp <;> rfl

theorem entry0_src (c : Dev nD) : W3 m ρ c (Proc.devRef .tc main_v1) = Cert.ReferenceIdeal.Stages.srcOf (m ((c : Thread nD τ).loc main_arg1)) := by
  show StableHlo.after hostOps0_2 (StableHlo.after hostOps0_1 (StableHlo.after hostOps0 (W0 m ρ c))) (Proc.devRef .tc main_v1) = _
  after_results_simp <;> rfl
theorem entry0_dst (c : Dev nD) : W3 m ρ c (Proc.devRef .tc main_v3) = Cert.ReferenceIdeal.Stages.dstOf (m ((c : Thread nD τ).loc main_arg1)) := by
  show StableHlo.after hostOps0_2 (StableHlo.after hostOps0_1 (StableHlo.after hostOps0 (W0 m ρ c))) (Proc.devRef .tc main_v3) = _
  after_results_simp <;> rfl
theorem entry0_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl
theorem entry0_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp <;> rfl
theorem entry0_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp <;> rfl
theorem entry0_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  after_results_simp <;> rfl
theorem entry0_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem entry0_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem entry0_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## At the second region's entry -/

attribute [local irreducible] Host.scatterAdd Host.gather in
theorem entry1_agg (c : Dev nD) : V5 m ρ c main_v37
    = meanK128 (W4 m ρ c (Proc.devRef .tc main_v24)) (Cert.ReferenceIdeal.Stages.srcOf (m ((c : Thread nD τ).loc main_arg1))) (Cert.ReferenceIdeal.Stages.dstOf (m ((c : Thread nD τ).loc main_arg1))) := by
  show StableHlo.after hostOps1 (W4 m ρ c) (Proc.devRef .tc main_v37) = _
  have h1 : W4 m ρ c (Proc.devRef .tc main_v1) = Cert.ReferenceIdeal.Stages.srcOf (m ((c : Thread nD τ).loc main_arg1)) :=
    (W4_of_ne m ρ c main_v1 (by decide)).trans (entry0_src m ρ c)
  have h3 : W4 m ρ c (Proc.devRef .tc main_v3) = Cert.ReferenceIdeal.Stages.dstOf (m ((c : Thread nD τ).loc main_arg1)) :=
    (W4_of_ne m ρ c main_v3 (by decide)).trans (entry0_dst m ρ c)
  have h10 : W4 m ρ c (Proc.devRef .tc main_v10) = invDeg (Cert.ReferenceIdeal.Stages.dstOf (m ((c : Thread nD τ).loc main_arg1))) :=
    (W4_of_ne m ρ c main_v10 (by decide)).trans (entry0_invDeg m ρ c)
  generalize W4 m ρ c = W at h1 h3 h10 ⊢
  after_results_simp
  rw [h1, h3, h10]
  rfl

theorem entry1_hidden (c : Dev nD) : V5 m ρ c main_v24 = W4 m ρ c (Proc.devRef .tc main_v24) := by
  show StableHlo.after hostOps1 (W4 m ρ c) (Proc.devRef .tc main_v24) = _
  after_results_simp <;> rfl
theorem entry1_arg5 (c : Dev nD) : V5 m ρ c main_arg5 = m ((c : Thread nD τ).loc main_arg5) := by
  show StableHlo.after hostOps1 (W4 m ρ c) (Proc.devRef .tc main_arg5) = _
  have h : W4 m ρ c (Proc.devRef .tc main_arg5) = m ((c : Thread nD τ).loc main_arg5) := (W4_of_ne m ρ c main_arg5 (by decide)).trans (entry0_arg5 m ρ c)
  generalize W4 m ρ c = W at h ⊢
  after_results_simp
  exact h
theorem entry1_arg6 (c : Dev nD) : V5 m ρ c main_arg6 = m ((c : Thread nD τ).loc main_arg6) := by
  show StableHlo.after hostOps1 (W4 m ρ c) (Proc.devRef .tc main_arg6) = _
  have h : W4 m ρ c (Proc.devRef .tc main_arg6) = m ((c : Thread nD τ).loc main_arg6) := (W4_of_ne m ρ c main_arg6 (by decide)).trans (entry0_arg6 m ρ c)
  generalize W4 m ρ c = W at h ⊢
  after_results_simp
  exact h
theorem entry1_arg7 (c : Dev nD) : V5 m ρ c main_arg7 = m ((c : Thread nD τ).loc main_arg7) := by
  show StableHlo.after hostOps1 (W4 m ρ c) (Proc.devRef .tc main_arg7) = _
  have h : W4 m ρ c (Proc.devRef .tc main_arg7) = m ((c : Thread nD τ).loc main_arg7) := (W4_of_ne m ρ c main_arg7 (by decide)).trans (entry0_arg7 m ρ c)
  generalize W4 m ρ c = W at h ⊢
  after_results_simp
  exact h

/-! ## The regions' output arrays -/

theorem exit0_hidden (c : Dev nD) : W4 m ρ c (Proc.devRef .tc main_v24) = (dat0 (V3 m ρ) c).arrAt 5 cfg0.N := W4_arr m ρ c 5
theorem exit1_logits (c : Dev nD) : W6 m ρ c (Proc.devRef .tc main_v38_0) = (dat1 (V5 m ρ) c).arrAt 5 cfg1.N := W6_arr m ρ c 5
theorem exit1_logsm (c : Dev nD) : W6 m ρ c (Proc.devRef .tc main_v38_1) = (dat1 (V5 m ρ) c).arrAt 6 cfg1.N := W6_arr m ρ c 6

end Cert.KernelIdeal.Fold

end
-- ==== Proof.Spec.lean ====
/-
  The mathematics both programs compute, over the extended reals, with no program in sight.

  A node's new feature row is an affine map of two rows: the mean of its in-neighbours' rows (a sum of
  gathered rows divided by the in-degree, the degree clipped below at one) through a left weight, and its own
  row through a right weight, plus a bias. The first layer is followed by a maximum with zero, the second by a
  log-softmax along the row: each entry minus the row's maximum, minus the logarithm of the row's sum of
  exponentials of those differences.

  Three facts join the two spellings of this. Adding the bias before or after the second product is the same
  sum (addition of extended reals commutes and associates). Multiplying by the reciprocal of a clipped degree
  is dividing by it, because the clipped degree is at least one and so is not zero. And a maximum that starts
  from a value already folded into the row's maximum changes nothing.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- The affine part of one layer at row `r`, column `q`: aggregated rows times the left weight, plus the
    node's own rows times the right weight, plus the bias. -/
def lin {n d e : Nat} (A X : (⟨2, ![n, d]⟩ : Shape).Idx → EReal) (Wl Wr : (⟨2, ![d, e]⟩ : Shape).Idx → EReal)
    (b : (⟨1, ![e]⟩ : Shape).Idx → EReal) (r : Fin n) (q : Fin e) : EReal :=
  (∑ k : Fin d, A (ix2 r k) * Wl (ix2 k q)) + (∑ k : Fin d, X (ix2 r k) * Wr (ix2 k q)) + b (ix1 q)

/-- The same sum with the bias added between the two products. -/
theorem bias_between_eq_lin {n d e : Nat} (A X : (⟨2, ![n, d]⟩ : Shape).Idx → EReal) (Wl Wr : (⟨2, ![d, e]⟩ : Shape).Idx → EReal)
    (b : (⟨1, ![e]⟩ : Shape).Idx → EReal) (r : Fin n) (q : Fin e) :
    (∑ k : Fin d, A (ix2 r k) * Wl (ix2 k q)) + b (ix1 q) + (∑ k : Fin d, X (ix2 r k) * Wr (ix2 k q)) = lin A X Wl Wr b r q :=
  add_right_comm _ _ _

/-- A row's maximum, folded from a starting value. -/
def rowMax {e : Nat} (init : EReal) (f : Fin e → EReal) : EReal := (Finset.univ : Finset (Fin e)).fold max init f

/-- The starting value is below the fold, so taking the maximum with it once more changes nothing. -/
theorem max_init_rowMax {e : Nat} (init : EReal) (f : Fin e → EReal) : max init (rowMax init f) = rowMax init f :=
  max_eq_right ((Finset.le_fold_max init).mpr (Or.inl le_rfl))

/-- Log-softmax of a row at entry `q`: the entry minus the row's maximum, minus the logarithm of the sum over
    the row of the exponentials of those differences. -/
def logSoftmaxRow {e : Nat} (init : EReal) (f : Fin e → EReal) (q : Fin e) : EReal :=
  (f q - rowMax init f) - Ideal.log (∑ k : Fin e, Ideal.exp (f k - rowMax init f))

/-- A degree clipped below at one is not zero. -/
theorem max_one_ne_zero (d : EReal) : max 1 d ≠ 0 :=
  (lt_of_lt_of_le zero_lt_one (le_max_left 1 d)).ne'

/-- Scaling a sum by the reciprocal of the clipped degree is dividing it by the clipped degree. -/
theorem mul_inv_clip_eq_div_clip (s d : EReal) : s * Ideal.div 1 (max 1 d) = Ideal.div s (max 1 d) :=
  Ideal.mul_one_div (max_one_ne_zero d)

end Cert.Sage

end
-- ==== Proof.LibColumn.lean ====
/-
  Layout operations read at an index, for a vector repeated along a new axis of a matrix.
  Through a column: a vector of length `a` recast (or broadcast) as an `a × 1` column, and such a column repeated
  along its unit axis to `a × b`; both read the vector at the row. Through a row: a vector of length `e` broadcast
  as a `1 × e` row and that row repeated to `a × e`; it reads the vector at the column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector broadcast as a column and the column repeated along the rows' entries reads, at `(r, q)`, the vector at `r`. -/
theorem broadcastInDim_col_apply {a b : ℕ} (v : (⟨1, ![a]⟩ : Shape).Idx → α)
    (h1 : (⟨1, ![a]⟩ : Shape).BroadcastsInDim ⟨2, ![a, 1]⟩ ![0]) (h2 : (⟨2, ![a, 1]⟩ : Shape).BroadcastsInDim ⟨2, ![a, b]⟩ ![0, 1])
    (r : Fin a) (q : Fin b) :
    broadcastInDim ⟨2, ![a, b]⟩ ![0, 1] h2 (broadcastInDim ⟨2, ![a, 1]⟩ ![0] h1 v) (ix2 r q) = v (ix1 r) := by
  have hr := r.isLt
  rw [broadcastInDim_apply ![0, 1] h2 _ (ix2 r q) (ix2 r (0 : Fin 1)) (fun ax => by
    match ax with
    | ⟨0, _⟩ =>
      show r.val = if a = 1 then 0 else r.val
      split
      · omega
      · rfl
    | ⟨1, _⟩ => rfl)]
  exact broadcastInDim_apply ![0] h1 v (ix2 r (0 : Fin 1)) (ix1 r) (fun ax => by
    match ax with
    | ⟨0, _⟩ =>
      show r.val = if a = 1 then 0 else r.val
      split
      · omega
      · rfl)

/-- A vector broadcast as a row and the row repeated down the rows reads, at `(r, q)`, the vector at `q`. -/
theorem broadcastInDim_row_apply {a e : ℕ} (b : (⟨1, ![e]⟩ : Shape).Idx → α)
    (h1 : (⟨1, ![e]⟩ : Shape).BroadcastsInDim ⟨2, ![1, e]⟩ ![1]) (h2 : (⟨2, ![1, e]⟩ : Shape).BroadcastsInDim ⟨2, ![a, e]⟩ ![0, 1])
    (r : Fin a) (q : Fin e) :
    broadcastInDim ⟨2, ![a, e]⟩ ![0, 1] h2 (broadcastInDim ⟨2, ![1, e]⟩ ![1] h1 b) (ix2 r q) = b (ix1 q) := by
  have hq := q.isLt
  rw [broadcastInDim_apply ![0, 1] h2 _ (ix2 r q) (ix2 (0 : Fin 1) q) (fun ax => by
    match ax with
    | ⟨0, _⟩ => rfl
    | ⟨1, _⟩ =>
      show q.val = if e = 1 then 0 else q.val
      split
      · omega
      · rfl)]
  exact broadcastInDim_apply ![1] h1 b (ix2 (0 : Fin 1) q) (ix1 q) (fun ax => by
    match ax with
    | ⟨0, _⟩ =>
      show q.val = if e = 1 then 0 else q.val
      split
      · omega
      · rfl)

end Cert.LibColumn
-- ==== Proof.KernelBody.lean ====
/-
  What the two kernel bodies store, entry by entry, over the extended reals.

  The first body stores, at row `p` and column `q` of its block, the maximum with zero of: the aggregated block's
  row `p` against the left weight's column `q`, plus the feature block's row `p` against the right weight's
  column `q`, plus the bias at `q`. Rounding an operand to a narrower format is the identity here, and a product
  into a zero accumulator is the plain sum over the contracted index.

  The second body stores the same affine expression without the maximum, and beside it the log-softmax of each
  row of that expression: the row maximum is a fold of `max` from the accumulator's starting value over the row,
  the row sum a plain finite sum.
-/
import proofs.«171152_j46205258170447_1_alg».proof.Proof.Gen.KernelIdeal.Skeleton
import proofs.«171152_j46205258170447_1_alg».proof.Proof.Spec
import proofs.«171152_j46205258170447_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Sage Cert.LibColumn

/-! ### The matrix product 5000x64 by 64x128: its operands' indices, axis by axis -/

theorem lhsA_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhsA_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhsA_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhsA_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product into a zero accumulator, at row `p` and column `q`, is the sum over the contracted index of the
    row's entries times the column's. -/
theorem matmulA_apply {φ₁ φ₂ : FTy} (l : FVec Ideal S5000x64 φ₁) (r : FVec Ideal S64x128 φ₂) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-! ### The matrix product 5000x128 by 128x40: its operands' indices, axis by axis -/

theorem lhsB_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhsB_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhsB_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhsB_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product into a zero accumulator, at row `p` and column `q`, is the sum over the contracted index of the
    row's entries times the column's. -/
theorem matmulB_apply {φ₁ φ₂ : FTy} (l : FVec Ideal S5000x128 φ₁) (r : FVec Ideal S128x40 φ₂) (p : Fin 5000) (q : Fin 40) :
    matmul dot_S5000x128_S128x40_S5000x40_1_0_0_1_n_n none l r (constant (F := Ideal) S5000x40 .f32 0x00000000#32) (ix2 p q)
      = ∑ k : Fin 128, l (ix2 p k) * r (ix2 k q) := by
  simp only [matmul]
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x40_S5000x40_1_0_0_1_n_n.rhsIdx (ix2 p q) ((contrEquiv1 dot_S5000x128_S128x40_S5000x40_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### The first body's stored value -/

theorem pay_layer1 (x0 x1 : Vec Ideal S5000x64 .f32) (x2 x3 : Vec Ideal S64x128 .f32) (x4 : Vec Ideal S128 .f32)
    (p : Fin 5000) (q : Fin 128) :
    k0_pay1 (F := Ideal) x0 x1 x2 x3 x4 (ix2 p q) = max (lin x0 x1 x2 x3 x4 p q) (Ideal.ofBits .f32 0x00000000#32) := by
  unfold k0_pay1 lin
  simp only [shapeCast_self]
  rw [maximumf_apply, addf_apply, addf_apply, matmulA_apply, matmulA_apply, broadcastTo_1b_ab_apply, shapeCast_a_1a_apply]
  simp only [truncf_apply, broadcast_apply]
  rfl

/-! ### The second body's stored values -/

theorem pay_layer2 (x0 x3 : Vec Ideal S5000x128 .f32) (x6 x8 : Vec Ideal S128x40 .f32) (x13 : Vec Ideal S40 .f32)
    (p : Fin 5000) (q : Fin 40) :
    k1_pay1 (F := Ideal) x0 x3 x6 x8 x13 (ix2 p q) = lin x0 x3 x6 x8 x13 p q := by
  unfold k1_pay1 lin
  simp only [shapeCast_self]
  rw [addf_apply, addf_apply, matmulB_apply, matmulB_apply, broadcastTo_1b_ab_apply, shapeCast_a_1a_apply]
  simp only [truncf_apply]

/-- A row's maximum as the body takes it: the fold of `max` over the row from the accumulator's starting value. -/
theorem rowmax_read (h : FVec Ideal S5000x40 .f32) (p : Fin 5000) :
    multiReduction .maximumf [1] S5000 h 0xFF800000#32 reduces_S5000x40_S5000 (.inl rfl) rfl (ix1 p)
      = rowMax (Ideal.ofBits .f32 0xFF800000#32) (fun k : Fin 40 => h (ix2 p k)) := by
  refine (Ideal.multiReduction_maximumf_single h 0xFF800000#32 reduces_S5000x40_S5000 (.inl rfl) rfl (ix1 p)).trans ?_
  unfold rowMax
  refine congrArg (fun f => (Finset.univ : Finset (Fin 40)).fold max (Ideal.ofBits .f32 0xFF800000#32) f) (funext fun k => ?_)
  exact congrArg h (funext fun a => Fin.ext (by match a with | ⟨0, _⟩ => rfl | ⟨1, _⟩ => rfl))

/-- A row's sum as the body takes it. -/
theorem rowsum_read (h : FVec Ideal S5000x40 .f32) (p : Fin 5000) :
    multiReduction .add [1] S5000 h 0x00000000#32 reduces_S5000x40_S5000 (.inl rfl) rfl (ix1 p)
      = ∑ k : Fin 40, h (ix2 p k) := by
  refine (Ideal.multiReduction_add_single h 0x00000000#32 reduces_S5000x40_S5000 (.inl rfl) rfl (ix1 p)).trans ?_
  refine Finset.sum_congr rfl fun k _ => ?_
  exact congrArg h (funext fun a => Fin.ext (by match a with | ⟨0, _⟩ => rfl | ⟨1, _⟩ => rfl))

theorem pay_logsoftmax (x0 x3 : Vec Ideal S5000x128 .f32) (x6 x8 : Vec Ideal S128x40 .f32) (x13 : Vec Ideal S40 .f32)
    (p : Fin 5000) (q : Fin 40) :
    k1_pay2 (F := Ideal) x0 x3 x6 x8 x13 (ix2 p q)
      = logSoftmaxRow (Ideal.ofBits .f32 0xFF800000#32) (fun k => k1_pay1 (F := Ideal) x0 x3 x6 x8 x13 (ix2 p k)) q := by
  unfold k1_pay2
  generalize k1_pay1 (F := Ideal) x0 x3 x6 x8 x13 = h
  simp only []
  have hshift : ∀ k : Fin 40, subf h (broadcastTo S5000x40 (shapeCast S5000x1 (multiReduction .maximumf [1] S5000 h 0xFF800000#32
        reduces_S5000x40_S5000 (.inl rfl) rfl) shapeCasts_S5000_S5000x1) broadcasts_S5000x1_S5000x40) (ix2 p k)
      = h (ix2 p k) - rowMax (Ideal.ofBits .f32 0xFF800000#32) (fun k => h (ix2 p k)) := fun k => by
    rw [subf_apply, broadcastTo_a1_ab_apply, shapeCast_a_a1_apply, rowmax_read]
  rw [subf_apply, hshift, broadcastTo_a1_ab_apply]
  show _ - Ideal.log (shapeCast S5000x1 _ shapeCasts_S5000_S5000x1 (ix2 p (0 : Fin 1))) = _
  rw [shapeCast_a_a1_apply, rowsum_read]
  unfold logSoftmaxRow
  refine congrArg (fun s => _ - Ideal.log s) (Finset.sum_congr rfl fun k _ => ?_)
  show Ideal.exp (subf h _ (ix2 p k)) = _
  rw [hshift]

end Cert.KernelIdeal.Body

end
-- ==== Proof.KernelValue.lean ====
/-
  What each output array holds after each kernel region, as one function of the arrays the region finds.

  A region's grid has ten points; at point `t` the body sees rows `5000 t … 5000 t + 4999` of the row-blocked
  arrays and the whole of the weights and the bias, and writes back rows `5000 t …` of each output. An entry of a
  written-back block depends only on its own row of the inputs, so block `t` of the output is block `t` of one
  whole-array function, and the ten blocks cover the 50000 rows.
-/
import proofs.«171152_j46205258170447_1_alg».proof.Proof.Gen.KernelIdeal.Frame
import proofs.«171152_j46205258170447_1_alg».proof.Proof.KernelBody
import proofs.«171152_j46205258170447_1_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)

/-- The first layer's rows: the affine map of the aggregated and the own rows, then the maximum with zero. -/
def layer1 (A X : S50000x64.Idx → EReal) (Wl Wr : S64x128.Idx → EReal) (b : S128.Idx → EReal) : S50000x128.Idx → EReal :=
  fun i => max (lin A X Wl Wr b (i 0) (i 1)) (Ideal.ofBits .f32 0x00000000#32)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where each window's block sits at point `t` of the first region: the row-blocked windows at block row `t`, the
    weights and the bias at their one block. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem flushed0 (c : Dev nD) (t : Fin cfg0.N) :
    (dat0 V c).flushed 5 t = ((cfg0.win 5).blk t).view.read (Elt Ideal)
      (layer1 (V c main_v23) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x128) hz2, View.ld_unit_zero (S := S128) hz1]
  obtain ⟨e00, e01, e10, e11, e20, e21, e30, e31, e40, e50, e51⟩ := idx_facts0 t
  funext j
  show k0_pay1 (iblk0 V c 0 t) (iblk0 V c 1 t) (iblk0 V c 2 t) (iblk0 V c 3 t) (iblk0 V c 4 t) j
     = layer1 (V c main_v23) (V c main_arg0) (V c main_arg2) (V c main_arg3) (V c main_arg4) (((cfg0.win 5).blk t).view.emb j)
  obtain ⟨p, q, rfl⟩ : ∃ (p : Fin 5000) (q : Fin 128), j = ix2 p q := ⟨j 0, j 1, eq_ix2 j⟩
  have ht : t.val < 10 := lt_of_lt_of_eq t.isLt N_0
  have hrow : t.val * 5000 + p.val < 50000 := by have := p.isLt; omega
  have hemb : ((cfg0.win 5).blk t).view.emb (ix2 p q) = ix2 (⟨t.val * 5000 + p.val, hrow⟩ : Fin 50000) q := by
    funext a; apply Fin.ext
    match a with
    | ⟨0, _⟩ => show win0_5.index t (0 : Fin 2) * 5000 + 1 * p.val = t.val * 5000 + p.val; rw [e50]; omega
    | ⟨1, _⟩ => show win0_5.index t (1 : Fin 2) * 128 + 1 * q.val = q.val; rw [e51]; omega
  rw [hemb]
  refine (pay_layer1 (iblk0 V c 0 t) (iblk0 V c 1 t) (iblk0 V c 2 t) (iblk0 V c 3 t) (iblk0 V c 4 t) p q).trans ?_
  have hA : ∀ k : Fin 64, iblk0 V c 0 t (ix2 p k) = V c main_v23 (ix2 (⟨t.val * 5000 + p.val, hrow⟩ : Fin 50000) k) := fun k => by
    show V c main_v23 (((cfg0.win 0).blk t).view.emb (ix2 p k)) = _
    refine congrArg (V c main_v23) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  have hX : ∀ k : Fin 64, iblk0 V c 1 t (ix2 p k) = V c main_arg0 (ix2 (⟨t.val * 5000 + p.val, hrow⟩ : Fin 50000) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 64 + 1 * k.val = k.val; rw [e11]; omega
  have hWl : ∀ k : Fin 64, iblk0 V c 2 t (ix2 k q) = V c main_arg2 (ix2 k q) := fun k => by
    show V c main_arg2 (((cfg0.win 2).blk t).view.emb (ix2 k q)) = _
    refine congrArg (V c main_arg2) (funext fun a => Fin.ext ?_)
    match a with
    | ⟨0, _⟩ => show win0_2.index t (0 : Fin 2) * 64 + 1 * k.val = k.val; rw [e20]; omega
    | ⟨1, _⟩ => show win0_2.index t (1 : Fin 2) * 128 + 1 * q.val = q.val; rw [e21]; omega
  have hWr : ∀ k : Fin 64, iblk0 V c 3 t (ix2 k q) = V c main_arg3 (ix2 k q) := fun k => by
    show V c main_arg3 (((cfg0.win 3).blk t).view.emb (ix2 k q)) = _
    refine congrArg (V c main_arg3) (funext fun a => Fin.ext ?_)
    match a with
    | ⟨0, _⟩ => show win0_3.index t (0 : Fin 2) * 64 + 1 * k.val = k.val; rw [e30]; omega
    | ⟨1, _⟩ => show win0_3.index t (1 : Fin 2) * 128 + 1 * q.val = q.val; rw [e31]; omega
  have hb : iblk0 V c 4 t (ix1 q) = V c main_arg4 (ix1 q) := by
    show V c main_arg4 (((cfg0.win 4).blk t).view.emb (ix1 q)) = _
    refine congrArg (V c main_arg4) (funext fun a => Fin.ext ?_)
    match a with
    | ⟨0, _⟩ => show win0_4.index t (0 : Fin 1) * 128 + 1 * q.val = q.val; rw [e40]; omega
  unfold layer1 lin
  simp only [hA, hX, hWl, hWr, hb]

/-- An index of the first region's output array is in point `t`'s block iff each coordinate is in the block's range. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row `r` lies in the block of point `r / 5000`. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have htN : (i 0).val / 5000 < cfg0.N := lt_of_lt_of_eq (by omega : (i 0).val / 5000 < 10) N_0.symm
  refine ⟨⟨(i 0).val / 5000, htN⟩, flush0_5 _, ?_⟩
  obtain ⟨-, -, -, -, -, -, -, -, -, e50, e51⟩ := idx_facts0 ⟨(i 0).val / 5000, htN⟩
  rw [mem_blk0]
  intro a
  match a with
  | ⟨0, _⟩ =>
    show win0_5.index ⟨(i 0).val / 5000, htN⟩ (0 : Fin 2) * 5000 ≤ (i 0).val ∧ (i 0).val < win0_5.index ⟨(i 0).val / 5000, htN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, htN⟩ (1 : Fin 2) * 128 ≤ (i 1).val ∧ (i 1).val < win0_5.index ⟨(i 0).val / 5000, htN⟩ (1 : Fin 2) * 128 + 128
    rw [e51]; omega

/-- After the first region its output array holds the first layer's rows of the arrays the region found. -/
theorem final0 (c : Dev nD) : (dat0 V c).arrAt 5 cfg0.N
    = layer1 (V c main_v23) (V c main_arg0) (V c main_arg2) (V c main_arg3) (V c main_arg4) :=
  (dat0 V c).arrAt_eq_of_cover 5 _ (fun t _ => flushed0 V c t) cover0

/-! ## The second region -/

/-- The second layer's rows: the affine map of the aggregated and the own hidden rows. -/
def layer2 (A X : S50000x128.Idx → EReal) (Wl Wr : S128x40.Idx → EReal) (b : S40.Idx → EReal) : S50000x40.Idx → EReal :=
  fun i => lin A X Wl Wr b (i 0) (i 1)

/-- The log-softmax along each row of a 40-wide array. -/
def logSoftmaxRows (H : S50000x40.Idx → EReal) : S50000x40.Idx → EReal :=
  fun i => logSoftmaxRow (Ideal.ofBits .f32 0xFF800000#32) (fun k : Fin 40 => H (ix2 (i 0) k)) (i 1)

/-- Where each window's block sits at point `t` of the second region. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The affine payload at row `p`, column `q` of point `t`'s blocks is the second layer's entry at row `5000 t + p`. -/
theorem blk1_at (c : Dev nD) (t : Fin cfg1.N) (p : Fin 5000) (q : Fin 40) (hrow : t.val * 5000 + p.val < 50000) :
    k1_pay1 (F := Ideal) (iblk1 V c 0 t) (iblk1 V c 1 t) (iblk1 V c 2 t) (iblk1 V c 3 t) (iblk1 V c 4 t) (ix2 p q)
      = layer2 (V c main_v37) (V c main_v24) (V c main_arg5) (V c main_arg6) (V c main_arg7) (ix2 (⟨t.val * 5000 + p.val, hrow⟩ : Fin 50000) q) := by
  obtain ⟨e00, e01, e10, e11, e20, e21, e30, e31, e40, -, -, -, -⟩ := idx_facts1 t
  refine (pay_layer2 (iblk1 V c 0 t) (iblk1 V c 1 t) (iblk1 V c 2 t) (iblk1 V c 3 t) (iblk1 V c 4 t) p q).trans ?_
  have hA : ∀ k : Fin 128, iblk1 V c 0 t (ix2 p k) = V c main_v37 (ix2 (⟨t.val * 5000 + p.val, hrow⟩ : Fin 50000) k) := fun k => by
    show V c main_v37 (((cfg1.win 0).blk t).view.emb (ix2 p k)) = _
    refine congrArg (V c main_v37) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  have hX : ∀ k : Fin 128, iblk1 V c 1 t (ix2 p k) = V c main_v24 (ix2 (⟨t.val * 5000 + p.val, hrow⟩ : Fin 50000) k) := fun k => by
    show V c main_v24 (((cfg1.win 1).blk t).view.emb (ix2 p k)) = _
    refine congrArg (V c main_v24) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega
  have hWl : ∀ k : Fin 128, iblk1 V c 2 t (ix2 k q) = V c main_arg5 (ix2 k q) := fun k => by
    show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; rw [e20]; omega
    | ⟨1, _⟩ => show win1_2.index t (1 : Fin 2) * 40 + 1 * q.val = q.val; rw [e21]; omega
  have hWr : ∀ k : Fin 128, iblk1 V c 3 t (ix2 k q) = V c main_arg6 (ix2 k q) := fun k => by
    show V c main_arg6 (((cfg1.win 3).blk t).view.emb (ix2 k q)) = _
    refine congrArg (V c main_arg6) (funext fun a => Fin.ext ?_)
    match a with
    | ⟨0, _⟩ => show win1_3.index t (0 : Fin 2) * 128 + 1 * k.val = k.val; rw [e30]; omega
    | ⟨1, _⟩ => show win1_3.index t (1 : Fin 2) * 40 + 1 * q.val = q.val; rw [e31]; omega
  have hb : iblk1 V c 4 t (ix1 q) = V c main_arg7 (ix1 q) := by
    show V c main_arg7 (((cfg1.win 4).blk t).view.emb (ix1 q)) = _
    refine congrArg (V c main_arg7) (funext fun a => Fin.ext ?_)
    match a with
    | ⟨0, _⟩ => show win1_4.index t (0 : Fin 1) * 40 + 1 * q.val = q.val; rw [e40]; omega
  unfold layer2 lin
  simp only [hA, hX, hWl, hWr, hb]

theorem flushed1_5 (c : Dev nD) (t : Fin cfg1.N) :
    (dat1 V c).flushed 5 t = ((cfg1.win 5).blk t).view.read (Elt Ideal)
      (layer2 (V c main_v37) (V c main_v24) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x40) hz2, View.ld_unit_zero (S := S40) hz1]
  obtain ⟨-, -, -, -, -, -, -, -, -, e50, e51, -, -⟩ := idx_facts1 t
  funext j
  show k1_pay1 (iblk1 V c 0 t) (iblk1 V c 1 t) (iblk1 V c 2 t) (iblk1 V c 3 t) (iblk1 V c 4 t) j
     = layer2 (V c main_v37) (V c main_v24) (V c main_arg5) (V c main_arg6) (V c main_arg7) (((cfg1.win 5).blk t).view.emb j)
  obtain ⟨p, q, rfl⟩ : ∃ (p : Fin 5000) (q : Fin 40), j = ix2 p q := ⟨j 0, j 1, eq_ix2 j⟩
  have ht : t.val < 10 := lt_of_lt_of_eq t.isLt N_1
  have hrow : t.val * 5000 + p.val < 50000 := by have := p.isLt; omega
  have hemb : ((cfg1.win 5).blk t).view.emb (ix2 p q) = ix2 (⟨t.val * 5000 + p.val, hrow⟩ : Fin 50000) q := by
    funext a; apply Fin.ext
    match a with
    | ⟨0, _⟩ => show win1_5.index t (0 : Fin 2) * 5000 + 1 * p.val = t.val * 5000 + p.val; rw [e50]; omega
    | ⟨1, _⟩ => show win1_5.index t (1 : Fin 2) * 40 + 1 * q.val = q.val; rw [e51]; omega
  rw [hemb]
  exact blk1_at V c t p q hrow

theorem flushed1_6 (c : Dev nD) (t : Fin cfg1.N) :
    (dat1 V c).flushed 6 t = ((cfg1.win 6).blk t).view.read (Elt Ideal)
      (logSoftmaxRows (layer2 (V c main_v37) (V c main_v24) (V c main_arg5) (V c main_arg6) (V c main_arg7))) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x40) hz2, View.ld_unit_zero (S := S40) hz1]
  obtain ⟨-, -, -, -, -, -, -, -, -, -, -, e60, e61⟩ := idx_facts1 t
  funext j
  show k1_pay2 (iblk1 V c 0 t) (iblk1 V c 1 t) (iblk1 V c 2 t) (iblk1 V c 3 t) (iblk1 V c 4 t) j
     = logSoftmaxRows (layer2 (V c main_v37) (V c main_v24) (V c main_arg5) (V c main_arg6) (V c main_arg7)) (((cfg1.win 6).blk t).view.emb j)
  obtain ⟨p, q, rfl⟩ : ∃ (p : Fin 5000) (q : Fin 40), j = ix2 p q := ⟨j 0, j 1, eq_ix2 j⟩
  have ht : t.val < 10 := lt_of_lt_of_eq t.isLt N_1
  have hrow : t.val * 5000 + p.val < 50000 := by have := p.isLt; omega
  have hemb : ((cfg1.win 6).blk t).view.emb (ix2 p q) = ix2 (⟨t.val * 5000 + p.val, hrow⟩ : Fin 50000) q := by
    funext a; apply Fin.ext
    match a with
    | ⟨0, _⟩ => show win1_6.index t (0 : Fin 2) * 5000 + 1 * p.val = t.val * 5000 + p.val; rw [e60]; omega
    | ⟨1, _⟩ => show win1_6.index t (1 : Fin 2) * 40 + 1 * q.val = q.val; rw [e61]; omega
  rw [hemb]
  refine (pay_logsoftmax (iblk1 V c 0 t) (iblk1 V c 1 t) (iblk1 V c 2 t) (iblk1 V c 3 t) (iblk1 V c 4 t) p q).trans ?_
  unfold logSoftmaxRows
  exact congrArg (fun f => logSoftmaxRow (Ideal.ofBits .f32 0xFF800000#32) f q) (funext fun k => blk1_at V c t p k hrow)

theorem mem_blk1_5 (t : Fin cfg1.N) (i : S50000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v38_0).slice (win1_5.rect t)).set ↔ _
  rw [View.set_slice_whole, Rect.mem_set_unit]
  exact Iff.rfl
theorem mem_blk1_6 (t : Fin cfg1.N) (i : S50000x40.Idx) :
    i ∈ ((cfg1.win 6).blk t).view.set ↔ ∀ a : Fin 2, win1_6.index t a * S5000x40.size a ≤ (i a).val ∧ (i a).val < win1_6.index t a * S5000x40.size a + S5000x40.size a := by
  show i ∈ ((View.whole main_v38_1).slice (win1_6.rect t)).set ↔ _
  rw [View.set_slice_whole, Rect.mem_set_unit]
  exact Iff.rfl

theorem cover1_5 (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  have htN : (i 0).val / 5000 < cfg1.N := lt_of_lt_of_eq (by omega : (i 0).val / 5000 < 10) N_1.symm
  refine ⟨⟨(i 0).val / 5000, htN⟩, flush1_5 _, ?_⟩
  obtain ⟨-, -, -, -, -, -, -, -, -, e50, e51, -, -⟩ := idx_facts1 ⟨(i 0).val / 5000, htN⟩
  rw [mem_blk1_5]
  intro a
  match a with
  | ⟨0, _⟩ =>
    show win1_5.index ⟨(i 0).val / 5000, htN⟩ (0 : Fin 2) * 5000 ≤ (i 0).val ∧ (i 0).val < win1_5.index ⟨(i 0).val / 5000, htN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, htN⟩ (1 : Fin 2) * 40 ≤ (i 1).val ∧ (i 1).val < win1_5.index ⟨(i 0).val / 5000, htN⟩ (1 : Fin 2) * 40 + 40
    rw [e51]; omega

theorem cover1_6 (i : S50000x40.Idx) : ∃ t : Fin cfg1.N, (cfg1.win 6).flush t = true ∧ i ∈ ((cfg1.win 6).blk t).view.set := by
  have hi0 : (i 0).val < 50000 := (i 0).isLt
  have hi1 : (i 1).val < 40 := (i 1).isLt
  have htN : (i 0).val / 5000 < cfg1.N := lt_of_lt_of_eq (by omega : (i 0).val / 5000 < 10) N_1.symm
  refine ⟨⟨(i 0).val / 5000, htN⟩, flush1_6 _, ?_⟩
  obtain ⟨-, -, -, -, -, -, -, -, -, -, -, e60, e61⟩ := idx_facts1 ⟨(i 0).val / 5000, htN⟩
  rw [mem_blk1_6]
  intro a
  match a with
  | ⟨0, _⟩ =>
    show win1_6.index ⟨(i 0).val / 5000, htN⟩ (0 : Fin 2) * 5000 ≤ (i 0).val ∧ (i 0).val < win1_6.index ⟨(i 0).val / 5000, htN⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, htN⟩ (1 : Fin 2) * 40 ≤ (i 1).val ∧ (i 1).val < win1_6.index ⟨(i 0).val / 5000, htN⟩ (1 : Fin 2) * 40 + 40
    rw [e61]; omega

/-- After the second region its first output array holds the second layer's rows of the arrays the region found … -/
theorem final1_5 (c : Dev nD) : (dat1 V c).arrAt 5 cfg1.N
    = layer2 (V c main_v37) (V c main_v24) (V c main_arg5) (V c main_arg6) (V c main_arg7) :=
  (dat1 V c).arrAt_eq_of_cover 5 _ (fun t _ => flushed1_5 V c t) cover1_5

/-- … and its second output array their log-softmax along each row. -/
theorem final1_6 (c : Dev nD) : (dat1 V c).arrAt 6 cfg1.N
    = logSoftmaxRows (layer2 (V c main_v37) (V c main_v24) (V c main_arg5) (V c main_arg6) (V c main_arg7)) :=
  (dat1 V c).arrAt_eq_of_cover 6 _ (fun t _ => flushed1_6 V c t) cover1_6

end Cert.KernelIdeal.Arrays

end
-- ==== Proof.RefValue.lean ====
/-
  The reference's two layers and its log-softmax, entry by entry, over the extended reals.

  The host's matrix product at an entry is the plain sum over the contracted index; the bias, broadcast first as a row
  and then down the rows, reads at its column; the zero the first layer is compared with is a scalar repeated. So an
  entry of a layer is the affine expression with the bias added between the two products, which is the same sum
  as with the bias last. A row's maximum on the host is a fold of `max` over the row from the starting value, and the
  maximum of that with the starting value once more is itself; the row's sum is the starting zero plus the finite sum.
-/
import proofs.«171152_j46205258170447_1_alg».proof.Proof.RefRun
import proofs.«171152_j46205258170447_1_alg».proof.Proof.Spec
import proofs.«171152_j46205258170447_1_alg».proof.Proof.LibColumn
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Entries

open Cert.ReferenceIdeal Cert.ReferenceIdeal.Gen Cert.ReferenceIdeal.Stages Cert.Sage Cert.LibColumn
open Idealize.ShloMosaic Idealize.ShloMosaic.ValueIdx

/-! ### The matrix product 50000x64 by 64x128: its operands' indices, axis by axis -/

theorem lhsA_0 (i : S50000x128.Idx) (q : dot_S50000x64_S64x128_S50000x128_1_0_0_1_n_n.contr.Idx) :
    (dot_S50000x64_S64x128_S50000x128_1_0_0_1_n_n.lhsIdx i q 0).val = (i 0).val := by
  unfold DotDims.lhsIdx
  rw [dif_neg (show ¬(0 : Fin S50000x64.rank) ∈ dot_S50000x64_S64x128_S50000x128_1_0_0_1_n_n.lhsBatch by decide), dif_pos (show (0 : Fin S50000x64.rank) ∈ dot_S50000x64_S64x128_S50000x128_1_0_0_1_n_n.lhsNonContracting by decide)]
  rfl
theorem lhsA_1 (i : S50000x128.Idx) (q : dot_S50000x64_S64x128_S50000x128_1_0_0_1_n_n.contr.Idx) :
    (dot_S50000x64_S64x128_S50000x128_1_0_0_1_n_n.lhsIdx i q 1).val = (q ⟨0, by decide⟩).val :=
  dot_S50000x64_S64x128_S50000x128_1_0_0_1_n_n.lhsIdx_val_of_single rfl i q
theorem rhsA_0 (i : S50000x128.Idx) (q : dot_S50000x64_S64x128_S50000x128_1_0_0_1_n_n.contr.Idx) :
    (dot_S50000x64_S64x128_S50000x128_1_0_0_1_n_n.rhsIdx i q 0).val = (q ⟨0, by decide⟩).val :=
  dot_S50000x64_S64x128_S50000x128_1_0_0_1_n_n.rhsIdx_val_of_single rfl i q
theorem rhsA_1 (i : S50000x128.Idx) (q : dot_S50000x64_S64x128_S50000x128_1_0_0_1_n_n.contr.Idx) :
    (dot_S50000x64_S64x128_S50000x128_1_0_0_1_n_n.rhsIdx i q 1).val = (i 1).val := by
  unfold DotDims.rhsIdx
  rw [dif_neg (show ¬(1 : Fin S64x128.rank) ∈ dot_S50000x64_S64x128_S50000x128_1_0_0_1_n_n.rhsBatch by decide), dif_pos (show (1 : Fin S64x128.rank) ∈ dot_S50000x64_S64x128_S50000x128_1_0_0_1_n_n.rhsNonContracting by decide)]
  rfl

/-- The host's product at row `p` and column `q` is the sum over the contracted index of the row's entries times
    the column's. -/
theorem dotA_apply {φ₁ φ₂ : FTy} (l : FVec Ideal S50000x64 φ₁) (r : FVec Ideal S64x128 φ₂) (p : Fin 50000) (q : Fin 128) :
    Host.dotGeneral dot_S50000x64_S64x128_S50000x128_1_0_0_1_n_n none l r (ix2 p q) = ∑ k : Fin 64, l (ix2 p k) * r (ix2 k q) := by
  simp only [Host.dotGeneral]
  rw [Ideal.dotGeneral_apply, ← Equiv.sum_comp (contrEquiv1 dot_S50000x64_S64x128_S50000x128_1_0_0_1_n_n 64 rfl rfl).symm]
  refine Finset.sum_congr rfl fun k _ => ?_
  have hk := contrEquiv1_symm_val dot_S50000x64_S64x128_S50000x128_1_0_0_1_n_n 64 rfl rfl k
  have el : dot_S50000x64_S64x128_S50000x128_1_0_0_1_n_n.lhsIdx (ix2 p q) ((contrEquiv1 dot_S50000x64_S64x128_S50000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S50000x64_S64x128_S50000x128_1_0_0_1_n_n.rhsIdx (ix2 p q) ((contrEquiv1 dot_S50000x64_S64x128_S50000x128_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-! ### The matrix product 50000x128 by 128x40: its operands' indices, axis by axis -/

theorem lhsB_0 (i : S50000x40.Idx) (q : dot_S50000x128_S128x40_S50000x40_1_0_0_1_n_n.contr.Idx) :
    (dot_S50000x128_S128x40_S50000x40_1_0_0_1_n_n.lhsIdx i q 0).val = (i 0).val := by
  unfold DotDims.lhsIdx
  rw [dif_neg (show ¬(0 : Fin S50000x128.rank) ∈ dot_S50000x128_S128x40_S50000x40_1_0_0_1_n_n.lhsBatch by decide), dif_pos (show (0 : Fin S50000x128.rank) ∈ dot_S50000x128_S128x40_S50000x40_1_0_0_1_n_n.lhsNonContracting by decide)]
  rfl
theorem lhsB_1 (i : S50000x40.Idx) (q : dot_S50000x128_S128x40_S50000x40_1_0_0_1_n_n.contr.Idx) :
    (dot_S50000x128_S128x40_S50000x40_1_0_0_1_n_n.lhsIdx i q 1).val = (q ⟨0, by decide⟩).val :=
  dot_S50000x128_S128x40_S50000x40_1_0_0_1_n_n.lhsIdx_val_of_single rfl i q
theorem rhsB_0 (i : S50000x40.Idx) (q : dot_S50000x128_S128x40_S50000x40_1_0_0_1_n_n.contr.Idx) :
    (dot_S50000x128_S128x40_S50000x40_1_0_0_1_n_n.rhsIdx i q 0).val = (q ⟨0, by decide⟩).val :=
  dot_S50000x128_S128x40_S50000x40_1_0_0_1_n_n.rhsIdx_val_of_single rfl i q
theorem rhsB_1 (i : S50000x40.Idx) (q : dot_S50000x128_S128x40_S50000x40_1_0_0_1_n_n.contr.Idx) :
    (dot_S50000x128_S128x40_S50000x40_1_0_0_1_n_n.rhsIdx i q 1).val = (i 1).val := by
  unfold DotDims.rhsIdx
  rw [dif_neg (show ¬(1 : Fin S128x40.rank) ∈ dot_S50000x128_S128x40_S50000x40_1_0_0_1_n_n.rhsBatch by decide), dif_pos (show (1 : Fin S128x40.rank) ∈ dot_S50000x128_S128x40_S50000x40_1_0_0_1_n_n.rhsNonContracting by decide)]
  rfl

/-- The host's product at row `p` and column `q` is the sum over the contracted index of the row's entries times
    the column's. -/
theorem dotB_apply {φ₁ φ₂ : FTy} (l : FVec Ideal S50000x128 φ₁) (r : FVec Ideal S128x40 φ₂) (p : Fin 50000) (q : Fin 40) :
    Host.dotGeneral dot_S50000x128_S128x40_S50000x40_1_0_0_1_n_n none l r (ix2 p q) = ∑ k : Fin 128, l (ix2 p k) * r (ix2 k q) := by
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 p q) ((contrEquiv1 dot_S50000x128_S128x40_S50000x40_1_0_0_1_n_n 128 rfl rfl).symm k) = ix2 p k := funext fun a => Fin.ext (by
    match a with
    | ⟨0, _⟩ => exact lhsB_0 _ _
    | ⟨1, _⟩ => exact (lhsB_1 _ _).trans hk)
  have er : dot_S50000x128_S128x40_S50000x40_1_0_0_1_n_n.rhsIdx (ix2 p q) ((contrEquiv1 dot_S50000x128_S128x40_S50000x40_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### The two layers -/

/-- The first layer at row `r`, column `q`. -/
theorem relu_affine1_apply (A X : (⟨S50000x64, .f32⟩ : BufTy).Contents (Elt Ideal)) (Wl Wr : (⟨S64x128, .f32⟩ : BufTy).Contents (Elt Ideal)) (b : (⟨S128, .f32⟩ : BufTy).Contents (Elt Ideal))
    (r : Fin 50000) (q : Fin 128) :
    relu128 (affine1 A X Wl Wr b) (ix2 r q) = max (lin A X Wl Wr b r q) (Ideal.ofBits .f32 0x00000000#32) := by
  unfold relu128 affine1
  rw [maximumf_apply, addf_apply, addf_apply, dotA_apply, dotA_apply, broadcastInDim_row_apply, broadcastInDim_scalar_apply,
    bias_between_eq_lin]
  rfl

/-- The second layer at row `r`, column `q`. -/
theorem affine2_apply (A X : (⟨S50000x128, .f32⟩ : BufTy).Contents (Elt Ideal)) (Wl Wr : (⟨S128x40, .f32⟩ : BufTy).Contents (Elt Ideal)) (b : (⟨S40, .f32⟩ : BufTy).Contents (Elt Ideal))
    (r : Fin 50000) (q : Fin 40) :
    affine2 A X Wl Wr b (ix2 r q) = lin A X Wl Wr b r q := by
  unfold affine2
  rw [addf_apply, addf_apply, dotB_apply, dotB_apply, broadcastInDim_row_apply, bias_between_eq_lin]

/-! ### The log-softmax -/

/-- The host's logarithm and exponential act entry by entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- A row's maximum as the host takes it. -/
theorem hostRowMax_apply (h : (⟨S50000x40, .f32⟩ : BufTy).Contents (Elt Ideal)) (r : Fin 50000) :
    Host.reduce FloatOps.maximumf h (constant (F := Ideal) S_ .f32 0xFF800000#32) reducesTo_S50000x40_S50000_d1 h_S_ (ix1 r)
      = rowMax (Ideal.ofBits .f32 0xFF800000#32) (fun k : Fin 40 => h (ix2 r k)) := by
  refine (Host.reduce_eq_fold_single (α := Ideal .f32) (FloatOps.maximumf (F := Ideal) (φ := .f32)) h
    (constant (F := Ideal) S_ .f32 0xFF800000#32) reducesTo_S50000x40_S50000_d1 (by decide) h_S_ (ix1 r)).trans ?_
  unfold rowMax
  refine congrArg (fun f => (Finset.univ : Finset (Fin 40)).fold max (Ideal.ofBits .f32 0xFF800000#32) f) (funext fun k => ?_)
  exact congrArg h (funext fun a => Fin.ext (by match a with | ⟨0, _⟩ => rfl | ⟨1, _⟩ => rfl))

attribute [local irreducible] Host.reduce in
theorem rowMaxRows_apply (h : (⟨S50000x40, .f32⟩ : BufTy).Contents (Elt Ideal)) (r : Fin 50000) (q : Fin 40) :
    rowMaxRows h (ix2 r q) = rowMax (Ideal.ofBits .f32 0xFF800000#32) (fun k : Fin 40 => h (ix2 r k)) := by
  unfold rowMaxRows
  rw [broadcastInDim_col_apply, maximumf_apply, broadcastInDim_scalar_apply, hostRowMax_apply]
  exact max_init_rowMax _ _

/-- A row's sum as the host takes it, from a zero start. -/
theorem hostRowSum_apply (h : (⟨S50000x40, .f32⟩ : BufTy).Contents (Elt Ideal)) (r : Fin 50000) :
    Host.reduceAdd h (constant (F := Ideal) S_ .f32 0x00000000#32) reducesTo_S50000x40_S50000_d1 h_S_ (ix1 r)
      = ∑ k : Fin 40, h (ix2 r k) := by
  rw [hostReduceAdd_apply, Ideal.hostReduceAdd_single reducesTo_S50000x40_S50000_d1 (by decide)]
  show Ideal.ofBits .f32 0x00000000#32 + _ = _
  rw [Ideal.ofBits_zero_f32, zero_add]
  refine Finset.sum_congr rfl fun k _ => ?_
  exact congrArg h (funext fun a => Fin.ext (by match a with | ⟨0, _⟩ => rfl | ⟨1, _⟩ => rfl))

attribute [local irreducible] Host.reduce in
/-- The log-softmax at row `r`, column `q`. -/
theorem logsm_apply (h : (⟨S50000x40, .f32⟩ : BufTy).Contents (Elt Ideal)) (r : Fin 50000) (q : Fin 40) :
    logsm h (ix2 r q) = logSoftmaxRow (Ideal.ofBits .f32 0xFF800000#32) (fun k : Fin 40 => h (ix2 r k)) q := by
  have hs : ∀ k : Fin 40, subf h (rowMaxRows h) (ix2 r k)
      = h (ix2 r k) - rowMax (Ideal.ofBits .f32 0xFF800000#32) (fun k : Fin 40 => h (ix2 r k)) := fun k => by
    rw [subf_apply, rowMaxRows_apply]
  unfold logsm logSoftmaxRow
  rw [subf_apply, hs, broadcastInDim_apply ![0, 1] bcast_S50000x1_S50000x40_0_1 _ (ix2 r q) (ix2 r (0 : Fin 1)) (fun ax => by
    match ax with
    | ⟨0, _⟩ => rfl
    | ⟨1, _⟩ => rfl)]
  rw [hostLog_apply, broadcastInDim_apply ![0] bcast_S50000_S50000x1_0 _ (ix2 r (0 : Fin 1)) (ix1 r) (fun ax => by
    match ax with
    | ⟨0, _⟩ => rfl), hostRowSum_apply]
  refine congrArg (fun s => _ - Ideal.log s) (Finset.sum_congr rfl fun k _ => ?_)
  rw [hostExp_apply, hs]

end Cert.ReferenceIdeal.Entries

end
-- ==== Proof.Bridge.lean ====
/-
  The kernel program's two results are the reference's, as functions of the arguments.

  Four steps. The kernel's aggregate (the sum times the reciprocal of the clipped degree) is the reference's (the sum
  divided by the clipped degree): the clipped degree is at least one, so it is not zero. The kernel's first-layer rows
  (bias added last) are the reference's (bias added between the products): the same sum. Likewise the second layer;
  and the kernel's row-wise log-softmax is the host's, whose extra maximum with the fold's starting value changes nothing.
-/
import proofs.«171152_j46205258170447_1_alg».proof.Proof.KernelFold
import proofs.«171152_j46205258170447_1_alg».proof.Proof.KernelValue
import proofs.«171152_j46205258170447_1_alg».proof.Proof.RefValue

set_option maxRecDepth 16384

noncomputable section

namespace Cert.Bridge

open Idealize.ShloMosaic Idealize.ShloMosaic.TcCoe Idealize.ShloMosaic.ValueIdx Idealize.SL.Sem
open Cert.Sage Cert.LibColumn
open Cert.KernelIdeal Cert.KernelIdeal.Gen

/-! ## The aggregates -/

theorem meanK64_eq (x : (⟨S50000x64, .f32⟩ : BufTy).Contents (Elt Ideal)) (v1 v3 : (⟨S800000, .i32⟩ : BufTy).Contents (Elt Ideal)) :
    Cert.KernelIdeal.Fold.meanK64 (F := Ideal) x v1 v3 = Cert.ReferenceIdeal.Stages.mean64 x v1 v3 := by
  funext i
  obtain ⟨r, q, rfl⟩ : ∃ (r : Fin 50000) (q : Fin 64), i = ix2 r q := ⟨i 0, i 1, eq_ix2 i⟩
  unfold Cert.KernelIdeal.Fold.meanK64 Cert.ReferenceIdeal.Stages.mean64 Cert.ReferenceIdeal.Stages.degRows64 Cert.KernelIdeal.Fold.invDeg
  rw [mulf_apply, hostDivf_apply, broadcastInDim_col_apply, broadcastInDim_col_apply, hostDivf_apply, broadcastInDim_scalar_apply]
  unfold Cert.ReferenceIdeal.Stages.clipDeg
  rw [maximumf_apply, broadcastInDim_scalar_apply]
  show _ * Ideal.div (Ideal.ofBits .f32 0x3F800000#32) (max (Ideal.ofBits .f32 0x3F800000#32) _) = Ideal.div _ (max (Ideal.ofBits .f32 0x3F800000#32) _)
  rw [Ideal.ofBits_one_f32]
  exact mul_inv_clip_eq_div_clip _ _

theorem meanK128_eq (x : (⟨S50000x128, .f32⟩ : BufTy).Contents (Elt Ideal)) (v1 v3 : (⟨S800000, .i32⟩ : BufTy).Contents (Elt Ideal)) :
    Cert.KernelIdeal.Fold.meanK128 (F := Ideal) x v1 v3 = Cert.ReferenceIdeal.Stages.mean128 x v1 v3 := by
  funext i
  obtain ⟨r, q, rfl⟩ : ∃ (r : Fin 50000) (q : Fin 128), i = ix2 r q := ⟨i 0, i 1, eq_ix2 i⟩
  unfold Cert.KernelIdeal.Fold.meanK128 Cert.ReferenceIdeal.Stages.mean128 Cert.ReferenceIdeal.Stages.degRows128 Cert.KernelIdeal.Fold.invDeg
  rw [mulf_apply, hostDivf_apply, broadcastInDim_col_apply, broadcastInDim_col_apply, hostDivf_apply, broadcastInDim_scalar_apply]
  unfold Cert.ReferenceIdeal.Stages.clipDeg
  rw [maximumf_apply, broadcastInDim_scalar_apply]
  show _ * Ideal.div (Ideal.ofBits .f32 0x3F800000#32) (max (Ideal.ofBits .f32 0x3F800000#32) _) = Ideal.div _ (max (Ideal.ofBits .f32 0x3F800000#32) _)
  rw [Ideal.ofBits_one_f32]
  exact mul_inv_clip_eq_div_clip _ _

/-! ## The layers and the log-softmax -/

theorem layer1_eq (A X : (⟨S50000x64, .f32⟩ : BufTy).Contents (Elt Ideal)) (Wl Wr : (⟨S64x128, .f32⟩ : BufTy).Contents (Elt Ideal)) (b : (⟨S128, .f32⟩ : BufTy).Contents (Elt Ideal)) :
    Cert.KernelIdeal.Arrays.layer1 A X Wl Wr b = Cert.ReferenceIdeal.Stages.relu128 (Cert.ReferenceIdeal.Stages.affine1 A X Wl Wr b) := by
  funext i
  obtain ⟨r, q, rfl⟩ : ∃ (r : Fin 50000) (q : Fin 128), i = ix2 r q := ⟨i 0, i 1, eq_ix2 i⟩
  exact (Cert.ReferenceIdeal.Entries.relu_affine1_apply A X Wl Wr b r q).symm

theorem layer2_eq (A X : (⟨S50000x128, .f32⟩ : BufTy).Contents (Elt Ideal)) (Wl Wr : (⟨S128x40, .f32⟩ : BufTy).Contents (Elt Ideal)) (b : (⟨S40, .f32⟩ : BufTy).Contents (Elt Ideal)) :
    Cert.KernelIdeal.Arrays.layer2 A X Wl Wr b = Cert.ReferenceIdeal.Stages.affine2 A X Wl Wr b := by
  funext i
  obtain ⟨r, q, rfl⟩ : ∃ (r : Fin 50000) (q : Fin 40), i = ix2 r q := ⟨i 0, i 1, eq_ix2 i⟩
  exact (Cert.ReferenceIdeal.Entries.affine2_apply A X Wl Wr b r q).symm

theorem logSoftmaxRows_eq (H : (⟨S50000x40, .f32⟩ : BufTy).Contents (Elt Ideal)) :
    Cert.KernelIdeal.Arrays.logSoftmaxRows H = Cert.ReferenceIdeal.Stages.logsm H := by
  funext i
  obtain ⟨r, q, rfl⟩ : ∃ (r : Fin 50000) (q : Fin 40), i = ix2 r q := ⟨i 0, i 1, eq_ix2 i⟩
  exact (Cert.ReferenceIdeal.Entries.logsm_apply H r q).symm

/-! ## The results -/

variable (m : (ℓ : Loc nD τ sig) → Buf (Elt Ideal) ℓ) (ρ : Dev nD → PrngReg)

/-- The hidden rows the first region leaves are the reference's. -/
theorem hidden_eq (c : Dev nD) : W4 m ρ c (Proc.devRef .tc main_v24)
    = Cert.ReferenceIdeal.Stages.hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.KernelIdeal.Fold.exit0_hidden, Cert.KernelIdeal.Arrays.final0 (V3 m ρ) c, Cert.KernelIdeal.Fold.entry0_agg,
    Cert.KernelIdeal.Fold.entry0_arg0, Cert.KernelIdeal.Fold.entry0_arg2, Cert.KernelIdeal.Fold.entry0_arg3, Cert.KernelIdeal.Fold.entry0_arg4,
    meanK64_eq, layer1_eq]
  rfl

/-- The logits the second region leaves are the reference's. -/
theorem logits_eq (c : Dev nD) : W6 m ρ c (Proc.devRef .tc main_v38_0)
    = Cert.ReferenceIdeal.Stages.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.Fold.exit1_logits, Cert.KernelIdeal.Arrays.final1_5 (V5 m ρ) c, Cert.KernelIdeal.Fold.entry1_agg,
    Cert.KernelIdeal.Fold.entry1_hidden, Cert.KernelIdeal.Fold.entry1_arg5, Cert.KernelIdeal.Fold.entry1_arg6, Cert.KernelIdeal.Fold.entry1_arg7,
    hidden_eq, meanK128_eq, layer2_eq]
  rfl

/-- Their log-softmax likewise. -/
theorem logsm_eq (c : Dev nD) : W6 m ρ c (Proc.devRef .tc main_v38_1)
    = Cert.ReferenceIdeal.Stages.logsm (Cert.ReferenceIdeal.Stages.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Fold.exit1_logsm, Cert.KernelIdeal.Arrays.final1_6 (V5 m ρ) c, Cert.KernelIdeal.Fold.entry1_agg,
    Cert.KernelIdeal.Fold.entry1_hidden, Cert.KernelIdeal.Fold.entry1_arg5, Cert.KernelIdeal.Fold.entry1_arg6, Cert.KernelIdeal.Fold.entry1_arg7,
    hidden_eq, meanK128_eq, layer2_eq, logSoftmaxRows_eq]
  rfl

end Cert.Bridge

end
-- ==== Proof.lean ====
/-
  Two graph-convolution layers with mean aggregation, then a log-softmax: a kernel program whose dense maps run in two
  row-blocked kernels, against a reference that runs on the host throughout.

  Each layer maps a node's row to (mean of its in-neighbours' rows) · Wl + (its own row) · Wr + b; the first layer ends in
  a maximum with zero, the second in a log-softmax along the row. Over the extended reals the two programs differ in
  three spellings only: the mean is a product with the reciprocal of the clipped in-degree in one and a quotient by it in
  the other (equal because a degree clipped below at one is not zero); the bias is added after both products in one and
  between them in the other (addition commutes and associates); and the host's row maximum is taken once more with its
  own starting value (which changes nothing). The gathers and the scatter-sums that aggregate over the edges are the same
  terms in both programs and are never opened. No input needs to be finite for any of this.

  The kernel program's run is its generated frame's launch with the two result buffers kept in the conclusion; each
  region's output array is read as one whole-array function of the arrays the region finds; the reference's run is read
  in short stretches. The frames are the generated ones; the idealization rewrote nothing.
-/
import proofs.«171152_j46205258170447_1_alg».proof.Defs
import proofs.«171152_j46205258170447_1_alg».proof.Proof.Gen.Kernel
import proofs.«171152_j46205258170447_1_alg».proof.Proof.Gen.Kernel.Skeleton
import proofs.«171152_j46205258170447_1_alg».proof.Proof.Gen.Kernel.Launch
import proofs.«171152_j46205258170447_1_alg».proof.Proof.Gen.Kernel.Points
import proofs.«171152_j46205258170447_1_alg».proof.Proof.Gen.Kernel.Frame
import proofs.«171152_j46205258170447_1_alg».proof.Proof.Gen.KernelIdeal
import proofs.«171152_j46205258170447_1_alg».proof.Proof.Gen.KernelIdeal.Skeleton
import proofs.«171152_j46205258170447_1_alg».proof.Proof.Gen.KernelIdeal.Launch
import proofs.«171152_j46205258170447_1_alg».proof.Proof.Gen.KernelIdeal.Points
import proofs.«171152_j46205258170447_1_alg».proof.Proof.Gen.KernelIdeal.Frame
import proofs.«171152_j46205258170447_1_alg».proof.Proof.Gen.ReferenceIdeal
import proofs.«171152_j46205258170447_1_alg».proof.Proof.Gen.Pre_finite_inputs
import proofs.«171152_j46205258170447_1_alg».proof.Proof.KernelRun
import proofs.«171152_j46205258170447_1_alg».proof.Proof.RefRun
import proofs.«171152_j46205258170447_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's run with its two results dropped. -/
theorem frame_referenceIdeal : Cert.frame_ReferenceIdeal := fun m ρ _ =>
  (θ_run Cert.ReferenceIdeal.defs _ _).mono (fun _ h c => (h c).2.2) (Cert.ReferenceIdeal.Stages.run (F := Ideal) m ρ)

/-- Both programs end with the logits and their log-softmax as the same functions of arguments that agree. -/
theorem algebraic : Cert.algebraic_KernelIdeal_ReferenceIdeal := by
  intro m ρ m' ρ' _ hagree
  refine ⟨fun c => Cert.ReferenceIdeal.Stages.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Stages.logsm (Cert.ReferenceIdeal.Stages.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · exact (θ_run Cert.KernelIdeal.defs _ _).mono
      (fun r h c => ⟨(h c).1.trans (Cert.Bridge.logits_eq m ρ c), (h c).2.1.trans (Cert.Bridge.logsm_eq m ρ c), (h c).2.2⟩)
      (Cert.KernelIdeal.GenP.run_main (F := Ideal) m ρ)
  · refine (θ_run Cert.ReferenceIdeal.defs _ _).mono (fun r h c => ⟨(h c).1.trans ?_, (h c).2.1.trans ?_, (h c).2.2⟩)
      (Cert.ReferenceIdeal.Stages.run (F := Ideal) m' ρ')
    · rw [(hagree c).1, (hagree c).2.1, (hagree c).2.2.1, (hagree c).2.2.2.1, (hagree c).2.2.2.2.1, (hagree c).2.2.2.2.2.1,
        (hagree c).2.2.2.2.2.2.1, (hagree c).2.2.2.2.2.2.2]
    · rw [(hagree c).1, (hagree c).2.1, (hagree c).2.2.1, (hagree c).2.2.2.1, (hagree c).2.2.2.2.1, (hagree c).2.2.2.2.2.1,
        (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
